-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x256 .f32) (main_arg4 : FVec F S256 .f32) (main_arg5 : FVec F S256x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x256 : Shape := ⟨2, ![1, 256]⟩
abbrev S100000x256 : Shape := ⟨2, ![100000, 256]⟩
abbrev S5000x256 : Shape := ⟨2, ![5000, 256]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 69
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x1, .f32⟩
  | .hbm, ⟨49, _⟩ => ⟨S1x256, .f32⟩
  | .hbm, ⟨50, _⟩ => ⟨S100000x256, .f32⟩
  | .hbm, ⟨51, _⟩ => ⟨S100000x1, .f32⟩
  | .hbm, ⟨52, _⟩ => ⟨S100000x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S100000x1, .f32⟩
  | .hbm, ⟨67, _⟩ => ⟨S1x64, .f32⟩
  | .hbm, ⟨68, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x256, .f32⟩
  | .local _ .vmem, ⟨9, _⟩ => ⟨S1x256, .f32⟩
  | .local _ .vmem, ⟨10, _⟩ => ⟨S5000x1, .f32⟩
  | .local _ .vmem, ⟨11, _⟩ => ⟨S5000x1, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x1, .f32⟩
  | .local _ .vmem, ⟨17, _⟩ => ⟨S5000x1, .f32⟩
  | .local _ .vmem, ⟨18, _⟩ => ⟨S256x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_5 : Ref sig .tc := ⟨.hbm, 26, rfl⟩
abbrev main_call1_v0 : Ref sig .tc := ⟨.hbm, 27, rfl⟩
abbrev main_call1_v1 : Ref sig .tc := ⟨.hbm, 28, rfl⟩
abbrev main_v11 : Ref sig .tc := ⟨.hbm, 29, rfl⟩
abbrev main_cst_6 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_7 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_9 : Ref sig .tc := ⟨.hbm, 53, rfl⟩
abbrev main_v31 : Ref sig .tc := ⟨.hbm, 54, rfl⟩
abbrev main_v32 : Ref sig .tc := ⟨.hbm, 55, rfl⟩
abbrev main_c_10 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_11 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S256_S1x256 : S256.ShapeCasts S1x256
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  broadcasts_S5000x1_S5000x256 : S5000x1.Broadcasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x256_S5000x256_1_0_0_1_n_n_wf : DotDims.WF S5000x128 S128x256 S5000x256 [1] [0] [0] [1] [] []
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S100000x256.size a
  hwx1_4 : ∀ i : grid1.Coords, EltTy.bits .f32 = 32 ∨ (Rect.block (s := S100000x256) S5000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .f32 = 32 ∨ (Rect.block (s := S256x64) S256x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S256x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x256 : Shape := ⟨2, ![100000, 256]⟩
abbrev S1x256 : Shape := ⟨2, ![1, 256]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x256, .f32⟩
  | .hbm, ⟨50, _⟩ => ⟨S100000x1, .f32⟩
  | .hbm, ⟨51, _⟩ => ⟨S100000x256, .f32⟩
  | .hbm, ⟨52, _⟩ => ⟨S100000x256, .f32⟩
  | .hbm, ⟨53, _⟩ => ⟨S1x256, .f32⟩
  | .hbm, ⟨54, _⟩ => ⟨S100000x256, .f32⟩
  | .hbm, ⟨55, _⟩ => ⟨S100000x256, .f32⟩
  | .hbm, ⟨56, _⟩ => ⟨S_, .f32⟩
  | .hbm, ⟨57, _⟩ => ⟨S100000x256, .f32⟩
  | .hbm, ⟨58, _⟩ => ⟨S100000x256, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S_, .f32⟩
  | .hbm, ⟨73, _⟩ => ⟨S1600000, .f32⟩
  | .hbm, ⟨74, _⟩ => ⟨S_, .f32⟩
  | .hbm, ⟨75, _⟩ => ⟨S100000, .f32⟩
  | .hbm, ⟨76, _⟩ => ⟨S1600000x1, .i32⟩
  | .hbm, ⟨77, _⟩ => ⟨S100000, .f32⟩
  | .hbm, ⟨78, _⟩ => ⟨S_, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000x1, .f32⟩
  | .hbm, ⟨86, _⟩ => ⟨S100000x256, .f32⟩
  | .hbm, ⟨87, _⟩ => ⟨S100000x256, .f32⟩
  | .hbm, ⟨88, _⟩ => ⟨S100000x64, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S100000x1, .f32⟩
  | .hbm, ⟨103, _⟩ => ⟨S100000x64, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_5 : Ref sig .tc := ⟨.hbm, 26, rfl⟩
abbrev main_call1_v0 : Ref sig .tc := ⟨.hbm, 27, rfl⟩
abbrev main_call1_v1 : Ref sig .tc := ⟨.hbm, 28, rfl⟩
abbrev main_v11 : Ref sig .tc := ⟨.hbm, 29, rfl⟩
abbrev main_cst_6 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_7 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call2_cst : Ref sig .tc := ⟨.hbm, 56, rfl⟩
abbrev main_call2_v0 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_call3_v0 : Ref sig .tc := ⟨.hbm, 66, rfl⟩
abbrev main_call3_v1 : Ref sig .tc := ⟨.hbm, 67, rfl⟩
abbrev main_v39 : Ref sig .tc := ⟨.hbm, 68, rfl⟩
abbrev main_cst_12 : Ref sig .tc := ⟨.hbm, 69, rfl⟩
abbrev main_v40 : Ref sig .tc := ⟨.hbm, 70, rfl⟩
abbrev main_v41 : Ref sig .tc := ⟨.hbm, 71, rfl⟩
abbrev main_cst_13 : Ref sig .tc := ⟨.hbm, 72, rfl⟩
abbrev main_v42 : Ref sig .tc := ⟨.hbm, 73, rfl⟩
abbrev main_cst_14 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_15 : Ref sig .tc := ⟨.hbm, 78, rfl⟩
abbrev main_call4_v0 : Ref sig .tc := ⟨.hbm, 79, rfl⟩
abbrev main_call4_v1 : Ref sig .tc := ⟨.hbm, 80, rfl⟩
abbrev main_v46 : Ref sig .tc := ⟨.hbm, 81, rfl⟩
abbrev main_cst_16 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_c_17 : Ref sig .tc := ⟨.hbm, 89, rfl⟩
abbrev main_v53 : Ref sig .tc := ⟨.hbm, 90, rfl⟩
abbrev main_v54 : Ref sig .tc := ⟨.hbm, 91, rfl⟩
abbrev main_c_18 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_19 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The two graph-convolution layers as functions of whole arrays, entry by entry, on the extended reals.

  A node feature matrix has one row per node. One layer scales row p by the source-side norm of node p, sums the scaled
  rows of the neighbours over the edges, multiplies by a weight matrix, scales row p by the destination-side norm of
  node p and adds a bias row. Four row operations carry all of it:
    * scaleRows x n : entry (p, c) is x(p, c) · n(p);
    * addRow y v    : entry (p, c) is y(p, c) + v(c);
    * prod A B      : entry (p, c) is Σ_l A(p, l) · B(l, c);
    * relu y        : entry (p, c) is max(y(p, c), 0).
  None of them mixes rows, so a block of rows of the result depends only on the same block of rows of the operands.
-/
import Idealize.ShloMosaic.PureOps.Ideal.Laws
import Idealize.ShloMosaic.Lib.ValueIdx

noncomputable section

namespace Cert.Layers

open Idealize.ShloMosaic Idealize.ShloMosaic.ValueIdx

/-- An a×b matrix of extended reals, indexed as the printed programs index it. -/
abbrev Mat (a b : ℕ) : Type := (⟨2, ![a, b]⟩ : Shape).Idx → EReal
/-- A vector of a extended reals. -/
abbrev Vc (a : ℕ) : Type := (⟨1, ![a]⟩ : Shape).Idx → EReal

variable {a b k : ℕ}

/-- Row p multiplied by the p-th entry of n. -/
def scaleRows (x : Mat a b) (n : Vc a) : Mat a b := fun j => x j * n (ix1 (j 0 : Fin a))

/-- The row v added to every row. -/
def addRow (y : Mat a b) (v : Vc b) : Mat a b := fun j => y j + v (ix1 (j 1 : Fin b))

/-- The matrix product. -/
def prod (A : Mat a k) (B : Mat k b) : Mat a b := fun j => ∑ l : Fin k, A (ix2 (j 0 : Fin a) l) * B (ix2 l (j 1 : Fin b))

/-- The positive part, entry by entry. -/
def relu (y : Mat a b) : Mat a b := fun j => max (y j) 0

/-- The two layers over the node features `h`: `agg1` and `agg2` sum the rows of the neighbours over the edges (at widths 128
    and 64), `nout` and `nin` are the source-side and destination-side norms of the nodes. The first layer aggregates and then
    projects, scales, adds its bias and takes the positive part; the second scales, projects and then aggregates, scales and
    adds its bias. -/
def gcn (agg1 : Mat 100000 128 → Mat 100000 128) (agg2 : Mat 100000 64 → Mat 100000 64)
    (h : Mat 100000 128) (nout nin : Vc 100000) (W1 : Mat 128 256) (b1 : Vc 256) (W2 : Mat 256 64) (b2 : Vc 64) : Mat 100000 64 :=
  addRow (scaleRows (agg2 (prod (scaleRows (relu (addRow (scaleRows (prod (agg1 (scaleRows h nout)) W1) nin) b1)) nout) W2)) nin) b2

theorem scaleRows_apply (x : Mat a b) (n : Vc a) (p : Fin a) (c : Fin b) :
    scaleRows x n (ix2 p c) = x (ix2 p c) * n (ix1 p) := rfl

theorem addRow_apply (y : Mat a b) (v : Vc b) (p : Fin a) (c : Fin b) :
    addRow y v (ix2 p c) = y (ix2 p c) + v (ix1 c) := rfl

theorem prod_apply (A : Mat a k) (B : Mat k b) (p : Fin a) (c : Fin b) :
    prod A B (ix2 p c) = ∑ l : Fin k, A (ix2 p l) * B (ix2 l c) := rfl

theorem relu_apply (y : Mat a b) (p : Fin a) (c : Fin b) :
    relu y (ix2 p c) = max (y (ix2 p c)) 0 := rfl

end Cert.Layers

end
-- ==== Proof.KShared.lean ====
/-
  The three operations on the graph that both programs apply in the same words and that no step of the proof opens: the
  degree norm of the nodes, and the sum of the neighbours' rows over the edges at the two feature widths.
-/
import proofs.«100622_j16252156248489_1_alg».proof.KernelIdeal
import Idealize.ShloMosaic.PureOps.Ideal

noncomputable section

namespace Cert.KernelIdeal.Shared

open Idealize.ShloMosaic Cert.KernelIdeal

variable [Facts₀]
open Facts₀

/-- The degree norm: one is added at a node for every edge whose index word names it, the count is clamped below at one and
    raised to the power −1/2. -/
def normOf (idx : IVec S1600000 32) : FVec Ideal S100000 .f32 :=
  Host.powf
    (maximumf (broadcastInDim S100000 ![] bcast_S_S100000 (id (constant S_ .f32 0x3F800000#32)))
      (Host.scatterAdd scatter_S100000_S1600000x1_S1600000_n_0_0_1
        (broadcastInDim S100000 ![] bcast_S_S100000 (constant S_ .f32 0x00000000#32))
        (broadcastInDim S1600000x1 ![0] bcast_S1600000_S1600000x1_0 idx)
        (broadcastInDim S1600000 ![] bcast_S_S1600000 (constant S_ .f32 0x3F800000#32))))
    (broadcastInDim S100000 ![] bcast_S_S100000 (constant S_ .f32 0xBF000000#32))

/-- The source index words as a column of row numbers, a negative word counted from the end. -/
def edgeRows (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The rows of `x` named by the edges' sources, summed into the rows named by the edges' destinations (width 128). -/
def agg128 (src dst : IVec S1600000 32) (x : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x (edgeRows src))

/-- The same at width 64. -/
def agg64 (src dst : IVec S1600000 32) (x : FVec Ideal S100000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 x (edgeRows src))

end Cert.KernelIdeal.Shared

end
-- ==== Proof.RShared.lean ====
/-
  The three operations on the graph that both programs apply in the same words and that no step of the proof opens: the
  degree norm of the nodes, and the sum of the neighbours' rows over the edges at the two feature widths.
-/
import proofs.«100622_j16252156248489_1_alg».proof.ReferenceIdeal
import Idealize.ShloMosaic.PureOps.Ideal

noncomputable section

namespace Cert.ReferenceIdeal.Shared

open Idealize.ShloMosaic Cert.ReferenceIdeal

variable [Facts₀]
open Facts₀

/-- The degree norm: one is added at a node for every edge whose index word names it, the count is clamped below at one and
    raised to the power −1/2. -/
def normOf (idx : IVec S1600000 32) : FVec Ideal S100000 .f32 :=
  Host.powf
    (maximumf (broadcastInDim S100000 ![] bcast_S_S100000 (id (constant S_ .f32 0x3F800000#32)))
      (Host.scatterAdd scatter_S100000_S1600000x1_S1600000_n_0_0_1
        (broadcastInDim S100000 ![] bcast_S_S100000 (constant S_ .f32 0x00000000#32))
        (broadcastInDim S1600000x1 ![0] bcast_S1600000_S1600000x1_0 idx)
        (broadcastInDim S1600000 ![] bcast_S_S1600000 (constant S_ .f32 0x3F800000#32))))
    (broadcastInDim S100000 ![] bcast_S_S100000 (constant S_ .f32 0xBF000000#32))

/-- The source index words as a column of row numbers, a negative word counted from the end. -/
def edgeRows (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The rows of `x` named by the edges' sources, summed into the rows named by the edges' destinations (width 128). -/
def agg128 (src dst : IVec S1600000 32) (x : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x (edgeRows src))

/-- The same at width 64. -/
def agg64 (src dst : IVec S1600000 32) (x : FVec Ideal S100000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 x (edgeRows src))

end Cert.ReferenceIdeal.Shared

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.Region0.lean ====
/-
  The first kernel region: every row of the node features scaled by the node's source-side norm.

  The grid has 20 points; point t holds rows 5000·t … 5000·t + 4999 of the feature matrix and of the norm column, and
  stores, at (p, q) of its block, x(5000·t + p, q) · n(5000·t + p). The 20 blocks tile the 100000 rows, so the array
  the region leaves is `scaleRows x n` of the arrays it found.
-/
import proofs.«100622_j16252156248489_1_alg».proof.Proof.Gen.KernelIdeal.Frame
import proofs.«100622_j16252156248489_1_alg».proof.Proof.Spec
import proofs.«100622_j16252156248489_1_alg».proof.Proof.LibRowOps
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the feature entry times the norm column's entry of the same row. -/
theorem pay_apply (x0 : Vec Ideal S5000x128 .f32) (x1 : Vec Ideal S5000x1 .f32) (p : Fin 5000) (q : Fin 128) :
    k0_pay1 (F := Ideal) x0 x1 (ix2 p q) = x0 (ix2 p q) * x1 (ix2 p (0 : Fin 1)) := by
  unfold k0_pay1
  show x0 (ix2 p q) * broadcastTo S5000x128 (shapeCast S5000x1 x1 shapeCasts_S5000x1_S5000x1) broadcasts_S5000x1_S5000x128 (ix2 p q) = _
  rw [RowOps.broadcastTo_a1_ab_apply, shapeCast_self]

/-- Every window's block index on the row axis is the grid point, on the column axis 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The feature block of point t at (p, q) is the feature array at (5000·t + p, q). -/
theorem xblk_apply (c : Dev nD) (t : Fin cfg0.N) (p : Fin 5000) (q : Fin 128) (r : Fin 100000) (hr : r.val = 5000 * t.val + p.val) :
    (iblk0 V c 0 t : Vec Ideal S5000x128 .f32) (ix2 p q) = (V c main_arg0 : S100000x128.Idx → EReal) (ix2 r q) := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 128 + 1 * q.val = q.val; rw [e1]; omega

/-- The norm block of point t at (p, 0) is the norm column at (5000·t + p, 0). -/
theorem nblk_apply (c : Dev nD) (t : Fin cfg0.N) (p : Fin 5000) (r : Fin 100000) (hr : r.val = 5000 * t.val + p.val) :
    (iblk0 V c 1 t : Vec Ideal S5000x1 .f32) (ix2 p (0 : Fin 1)) = (V c main_v14 : S100000x1.Idx → EReal) (ix2 r (0 : Fin 1)) := by
  obtain ⟨-, -, e0, e1, -, -⟩ := idx_facts t
  unfold iblk0
  rw [View.read_apply]
  show V c main_v14 _ = V c main_v14 _
  congr 1
  funext a
  apply Fin.ext
  match a with
  | ⟨0, _⟩ => show win0_1.index t 0 * 5000 + 1 * p.val = r.val; rw [e0, hr]; omega
  | ⟨1, _⟩ => show win0_1.index t 1 * 1 + 1 * 0 = 0; rw [e1]

theorem N_eq : cfg0.N = 20 := by decide

/-- The place of (p, q) of point t's output block in the array: (5000·t + p, q). -/
theorem emb_apply (t : Fin cfg0.N) (p : Fin 5000) (q : Fin 128) (r : Fin 100000) (hr : r.val = 5000 * t.val + p.val) :
    ((cfg0.win 2).blk t).view.emb (ix2 p q) = (ix2 r q : S100000x128.Idx) := by
  obtain ⟨-, -, -, -, e0, e1⟩ := idx_facts t
  funext a
  apply Fin.ext
  match a with
  | ⟨0, _⟩ => show win0_2.index t 0 * 5000 + 1 * p.val = r.val; rw [e0, hr]; omega
  | ⟨1, _⟩ => show win0_2.index t 1 * 128 + 1 * q.val = q.val; rw [e1]; omega

/-- What point t writes back is block t of the row-scaled feature array. -/
theorem flushed_eq (c : Dev nD) (n : FVec Ideal S100000 .f32)
    (hn : (V c main_v14 : S100000x1.Idx → EReal) = shapeCast S100000x1 n shapeCasts_S100000_S100000x1) (t : Fin cfg0.N) :
    (dat0 V c).flushed 2 t = ((cfg0.win 2).blk t).view.read (Elt Ideal) (scaleRows (V c main_arg0) n) := by
  show (cfg0.win 2).cut (grid0.coords t) ((dat0 V c).after 2 t) = _
  rw [after0_2]
  unfold out0_2
  rw [View.canon_unit_zero hz]
  simp only [View.ld_unit_zero (S := S5000x128) hz, View.ld_unit_zero (S := S5000x1) hz]
  funext j
  obtain ⟨p, q, rfl⟩ : ∃ (p : Fin 5000) (q : Fin 128), j = ix2 p q := ⟨j 0, j 1, eq_ix2 j⟩
  have hr : 5000 * t.val + p.val < 100000 := by have := t.isLt; have := N_eq; omega
  refine (pay_apply _ _ p q).trans ?_
  rw [xblk_apply V c t p q ⟨_, hr⟩ rfl, nblk_apply V c t p ⟨_, hr⟩ rfl, hn, RowOps.shapeCast_a_a1_apply]
  rw [View.read_apply, emb_apply t p q ⟨_, hr⟩ rfl]
  rfl

/-- Every row of the array lies in the block of the point its index names. -/
theorem cover (i : S100000x128.Idx) : ∃ t : Fin cfg0.N, (cfg0.win 2).flush t = true ∧ i ∈ ((cfg0.win 2).blk t).view.set := by
  have h0 : (i 0).val < 100000 := (i 0).isLt
  have h1 : (i 1).val < 128 := (i 1).isLt
  let t : Fin cfg0.N := ⟨(i 0).val / 5000, by have := N_eq; omega⟩
  obtain ⟨-, -, -, -, e0, e1⟩ := idx_facts t
  refine ⟨t, flush0_2 t, ?_⟩
  show i ∈ ((View.whole main_v15).slice (win0_2.rect t)).set
  rw [View.set_slice_whole, Rect.mem_set_unit]
  intro a
  match a with
  | ⟨0, _⟩ => show win0_2.index t 0 * 5000 ≤ (i 0).val ∧ (i 0).val < win0_2.index t 0 * 5000 + 5000; rw [e0]; show (i 0).val / 5000 * 5000 ≤ _ ∧ _ < (i 0).val / 5000 * 5000 + 5000; omega
  | ⟨1, _⟩ => show win0_2.index t 1 * 128 ≤ (i 1).val ∧ (i 1).val < win0_2.index t 1 * 128 + 128; rw [e1]; omega

/-- THE REGION'S VALUE: from any entry contents whose norm column is the vector `n` as a column, the region leaves the feature
    array with row p scaled by n(p). -/
theorem value (c : Dev nD) (n : FVec Ideal S100000 .f32)
    (hn : (V c main_v14 : S100000x1.Idx → EReal) = shapeCast S100000x1 n shapeCasts_S100000_S100000x1) :
    (dat0 V c).arrAt 2 cfg0.N = scaleRows (V c main_arg0) n :=
  (dat0 V c).arrAt_eq_of_cover 2 (scaleRows (V c main_arg0) n) (fun t _ => flushed_eq V c n hn t) cover

end Cert.KernelIdeal.Region0

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.Region1.lean ====
/-
  The second kernel region: the aggregated features times the first weight matrix, each row scaled by the node's
  destination-side norm, the bias row added, the positive part taken.

  The grid has 20 points; point t holds rows 5000·t … 5000·t + 4999 of the aggregate and of the norm column, and the whole
  weight matrix and bias row. At the ideal values the change of float format before the product is the identity and the
  product into a zero accumulator is the plain sum over the contracted coordinate, so the point stores, at (p, q) of its
  block, max((Σ_l a(5000·t + p, l) · w(l, q)) · n(5000·t + p) + b(q), 0): only row 5000·t + p of the aggregate enters. The
  20 blocks tile the 100000 rows, so the array the region leaves is `relu (addRow (scaleRows (prod a w) n) b)`.
-/
import proofs.«100622_j16252156248489_1_alg».proof.Proof.Gen.KernelIdeal.Frame
import proofs.«100622_j16252156248489_1_alg».proof.Proof.Spec
import proofs.«100622_j16252156248489_1_alg».proof.Proof.LibRowOps
import proofs.«100622_j16252156248489_1_alg».proof.Proof.LibDenseLayer
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-- The block product into the zero accumulator, at (p, q): the sum over the 128 contracted coordinates. -/
theorem mm_apply (A : FVec Ideal S5000x128 .bf16) (B : FVec Ideal S128x256 .bf16) (p : Fin 5000) (q : Fin 256) :
    matmul (F := Ideal) dot_S5000x128_S128x256_S5000x256_1_0_0_1_n_n none A B (constant (F := Ideal) S5000x256 .f32 0x00000000#32) (ix2 p q)
      = ∑ l : Fin 128, A (ix2 p l) * B (ix2 l q) :=
  DenseLayer.matmul_rows_apply _ none A B p q

/-- The body's stored value at (p, q). -/
theorem pay_apply (x0 : Vec Ideal S5000x128 .f32) (x1 : Vec Ideal S128x256 .f32) (x3 : Vec Ideal S5000x1 .f32) (x2 : Vec Ideal S1x256 .f32)
    (p : Fin 5000) (q : Fin 256) :
    k1_pay1 (F := Ideal) x0 x1 x3 x2 (ix2 p q)
      = max ((∑ l : Fin 128, x0 (ix2 p l) * x1 (ix2 l q)) * x3 (ix2 p (0 : Fin 1)) + x2 (ix2 (0 : Fin 1) q)) 0 := by
  unfold k1_pay1
  show max (matmul (F := Ideal) dot_S5000x128_S128x256_S5000x256_1_0_0_1_n_n none
          (truncf .bf16 (shapeCast S5000x128 x0 shapeCasts_S5000x128_S5000x128) bitsLt_bf16_f32) (truncf .bf16 x1 bitsLt_bf16_f32)
          (constant (F := Ideal) S5000x256 .f32 0x00000000#32) (ix2 p q)
        * broadcastTo S5000x256 (shapeCast S5000x1 x3 shapeCasts_S5000x1_S5000x1) broadcasts_S5000x1_S5000x256 (ix2 p q)
        + broadcastTo S5000x256 (shapeCast S1x256 x2 shapeCasts_S1x256_S1x256) broadcasts_S1x256_S5000x256 (ix2 p q))
      (Ideal.ofBits .f32 0x00000000#32) = _
  rw [mm_apply, RowOps.broadcastTo_a1_ab_apply, broadcastTo_1b_ab_apply, shapeCast_self, shapeCast_self, shapeCast_self,
    Ideal.ofBits_zero_f32]
  rfl

/-- The block index of the aggregate, the norm column and the output on the row axis is the grid point, on the column axis 0;
    the weight matrix's and the bias row's block is always the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem N_eq : cfg1.N = 20 := by decide

/-- The aggregate's block of point t at (p, l) is the aggregate at (5000·t + p, l). -/
theorem ablk_apply (c : Dev nD) (t : Fin cfg1.N) (p : Fin 5000) (l : Fin 128) (r : Fin 100000) (hr : r.val = 5000 * t.val + p.val) :
    (iblk1 V c 0 t : Vec Ideal S5000x128 .f32) (ix2 p l) = (V c main_v25 : S100000x128.Idx → EReal) (ix2 r l) := by
  obtain ⟨e0, e1, -⟩ := idx_facts t
  unfold iblk1
  rw [View.read_apply]
  show V c main_v25 _ = V c main_v25 _
  congr 1
  funext a
  apply Fin.ext
  match a with
  | ⟨0, _⟩ => show win1_0.index t 0 * 5000 + 1 * p.val = r.val; rw [e0, hr]; omega
  | ⟨1, _⟩ => show win1_0.index t 1 * 128 + 1 * l.val = l.val; rw [e1]; omega

/-- The weight block of any point is the weight matrix. -/
theorem wblk_apply (c : Dev nD) (t : Fin cfg1.N) (l : Fin 128) (q : Fin 256) :
    (iblk1 V c 1 t : Vec Ideal S128x256 .f32) (ix2 l q) = (V c main_arg3 : S128x256.Idx → EReal) (ix2 l q) := by
  obtain ⟨-, -, e0, e1, -⟩ := idx_facts t
  unfold iblk1
  rw [View.read_apply]
  show V c main_arg3 _ = V c main_arg3 _
  congr 1
  funext a
  apply Fin.ext
  match a with
  | ⟨0, _⟩ => show win1_1.index t 0 * 128 + 1 * l.val = l.val; rw [e0]; omega
  | ⟨1, _⟩ => show win1_1.index t 1 * 256 + 1 * q.val = q.val; rw [e1]; omega

/-- The bias block of any point at (0, q) is the bias row at (0, q). -/
theorem bblk_apply (c : Dev nD) (t : Fin cfg1.N) (q : Fin 256) :
    (iblk1 V c 2 t : Vec Ideal S1x256 .f32) (ix2 (0 : Fin 1) q) = (V c main_v27 : S1x256.Idx → EReal) (ix2 (0 : Fin 1) q) := by
  obtain ⟨-, -, -, -, e0, e1, -⟩ := idx_facts t
  unfold iblk1
  rw [View.read_apply]
  show V c main_v27 _ = V c main_v27 _
  congr 1
  funext a
  apply Fin.ext
  match a with
  | ⟨0, _⟩ => show win1_2.index t 0 * 1 + 1 * 0 = 0; rw [e0]
  | ⟨1, _⟩ => show win1_2.index t 1 * 256 + 1 * q.val = q.val; rw [e1]; omega

/-- The norm block of point t at (p, 0) is the norm column at (5000·t + p, 0). -/
theorem nblk_apply (c : Dev nD) (t : Fin cfg1.N) (p : Fin 5000) (r : Fin 100000) (hr : r.val = 5000 * t.val + p.val) :
    (iblk1 V c 3 t : Vec Ideal S5000x1 .f32) (ix2 p (0 : Fin 1)) = (V c main_v26 : S100000x1.Idx → EReal) (ix2 r (0 : Fin 1)) := by
  obtain ⟨-, -, -, -, -, -, e0, e1, -⟩ := idx_facts t
  unfold iblk1
  rw [View.read_apply]
  show V c main_v26 _ = V c main_v26 _
  congr 1
  funext a
  apply Fin.ext
  match a with
  | ⟨0, _⟩ => show win1_3.index t 0 * 5000 + 1 * p.val = r.val; rw [e0, hr]; omega
  | ⟨1, _⟩ => show win1_3.index t 1 * 1 + 1 * 0 = 0; rw [e1]

/-- The place of (p, q) of point t's output block in the array: (5000·t + p, q). -/
theorem emb_apply (t : Fin cfg1.N) (p : Fin 5000) (q : Fin 256) (r : Fin 100000) (hr : r.val = 5000 * t.val + p.val) :
    ((cfg1.win 4).blk t).view.emb (ix2 p q) = (ix2 r q : S100000x256.Idx) := by
  obtain ⟨-, -, -, -, -, -, -, -, e0, e1⟩ := idx_facts t
  funext a
  apply Fin.ext
  match a with
  | ⟨0, _⟩ => show win1_4.index t 0 * 5000 + 1 * p.val = r.val; rw [e0, hr]; omega
  | ⟨1, _⟩ => show win1_4.index t 1 * 256 + 1 * q.val = q.val; rw [e1]; omega

/-- What point t writes back is block t of the layer's output. -/
theorem flushed_eq (c : Dev nD) (nin : FVec Ideal S100000 .f32) (b1 : FVec Ideal S256 .f32)
    (hn : (V c main_v26 : S100000x1.Idx → EReal) = shapeCast S100000x1 nin shapeCasts_S100000_S100000x1)
    (hb : (V c main_v27 : S1x256.Idx → EReal) = shapeCast S1x256 b1 shapeCasts_S256_S1x256) (t : Fin cfg1.N) :
    (dat1 V c).flushed 4 t
      = ((cfg1.win 4).blk t).view.read (Elt Ideal) (relu (addRow (scaleRows (prod (V c main_v25) (V c main_arg3)) nin) b1)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x256) hz, View.ld_unit_zero (S := S5000x1) hz,
    View.ld_unit_zero (S := S1x256) hz]
  funext j
  obtain ⟨p, q, rfl⟩ : ∃ (p : Fin 5000) (q : Fin 256), j = ix2 p q := ⟨j 0, j 1, eq_ix2 j⟩
  have hr : 5000 * t.val + p.val < 100000 := by have := t.isLt; have := N_eq; omega
  refine (pay_apply _ _ _ _ p q).trans ?_
  rw [nblk_apply V c t p ⟨_, hr⟩ rfl, bblk_apply V c t q, hn, hb, RowOps.shapeCast_a_a1_apply, shapeCast_a_1a_apply]
  rw [View.read_apply, emb_apply t p q ⟨_, hr⟩ rfl, relu_apply, addRow_apply, scaleRows_apply, prod_apply]
  congr 3
  exact Finset.sum_congr rfl fun l _ => by rw [ablk_apply V c t p l ⟨_, hr⟩ rfl, wblk_apply V c t l q]

/-- Every row of the array lies in the block of the point its index names. -/
theorem cover (i : S100000x256.Idx) : ∃ t : Fin cfg1.N, (cfg1.win 4).flush t = true ∧ i ∈ ((cfg1.win 4).blk t).view.set := by
  have h0 : (i 0).val < 100000 := (i 0).isLt
  have h1 : (i 1).val < 256 := (i 1).isLt
  let t : Fin cfg1.N := ⟨(i 0).val / 5000, by have := N_eq; omega⟩
  obtain ⟨-, -, -, -, -, -, -, -, e0, e1⟩ := idx_facts t
  refine ⟨t, flush1_4 t, ?_⟩
  show i ∈ ((View.whole main_v28).slice (win1_4.rect t)).set
  rw [View.set_slice_whole, Rect.mem_set_unit]
  intro a
  match a with
  | ⟨0, _⟩ => show win1_4.index t 0 * 5000 ≤ (i 0).val ∧ (i 0).val < win1_4.index t 0 * 5000 + 5000; rw [e0]; show (i 0).val / 5000 * 5000 ≤ _ ∧ _ < (i 0).val / 5000 * 5000 + 5000; omega
  | ⟨1, _⟩ => show win1_4.index t 1 * 256 ≤ (i 1).val ∧ (i 1).val < win1_4.index t 1 * 256 + 256; rw [e1]; omega

/-- THE REGION'S VALUE: from any entry contents whose norm column is the vector `nin` as a column and whose bias row is the
    vector `b1` as a row, the region leaves the positive part of the scaled product with the bias added. -/
theorem value (c : Dev nD) (nin : FVec Ideal S100000 .f32) (b1 : FVec Ideal S256 .f32)
    (hn : (V c main_v26 : S100000x1.Idx → EReal) = shapeCast S100000x1 nin shapeCasts_S100000_S100000x1)
    (hb : (V c main_v27 : S1x256.Idx → EReal) = shapeCast S1x256 b1 shapeCasts_S256_S1x256) :
    (dat1 V c).arrAt 4 cfg1.N = relu (addRow (scaleRows (prod (V c main_v25) (V c main_arg3)) nin) b1) :=
  (dat1 V c).arrAt_eq_of_cover 4 (relu (addRow (scaleRows (prod (V c main_v25) (V c main_arg3)) nin) b1))
    (fun t _ => flushed_eq V c nin b1 hn hb t) cover

end Cert.KernelIdeal.Region1

end
-- ==== Proof.Region2.lean ====
/-
  The third kernel region: the hidden features, each row scaled by the node's source-side norm, times the second weight
  matrix.

  The grid has 20 points; point t holds rows 5000·t … 5000·t + 4999 of the hidden features and of the norm column, and the
  whole weight matrix. At the ideal values the change of float format before the product is the identity and the product
  into a zero accumulator is the plain sum over the contracted coordinate, so the point stores, at (p, q) of its block,
  Σ_l (x(5000·t + p, l) · n(5000·t + p)) · w(l, q): only row 5000·t + p of the features enters. The 20 blocks tile the
  100000 rows, so the array the region leaves is `prod (scaleRows x n) w`.
-/
import proofs.«100622_j16252156248489_1_alg».proof.Proof.Gen.KernelIdeal.Frame
import proofs.«100622_j16252156248489_1_alg».proof.Proof.Spec
import proofs.«100622_j16252156248489_1_alg».proof.Proof.LibRowOps
import proofs.«100622_j16252156248489_1_alg».proof.Proof.LibDenseLayer
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-- The block product into the zero accumulator, at (p, q): the sum over the 256 contracted coordinates. -/
theorem mm_apply (A : FVec Ideal S5000x256 .bf16) (B : FVec Ideal S256x64 .bf16) (p : Fin 5000) (q : Fin 64) :
    matmul (F := Ideal) dot_S5000x256_S256x64_S5000x64_1_0_0_1_n_n none A B (constant (F := Ideal) S5000x64 .f32 0x00000000#32) (ix2 p q)
      = ∑ l : Fin 256, A (ix2 p l) * B (ix2 l q) :=
  DenseLayer.matmul_rows_apply _ none A B p q

/-- The body's stored value at (p, q). -/
theorem pay_apply (x0 : Vec Ideal S5000x256 .f32) (x1 : Vec Ideal S5000x1 .f32) (x2 : Vec Ideal S256x64 .f32)
    (p : Fin 5000) (q : Fin 64) :
    k2_pay1 (F := Ideal) x0 x1 x2 (ix2 p q)
      = ∑ l : Fin 256, (x0 (ix2 p l) * x1 (ix2 p (0 : Fin 1))) * x2 (ix2 l q) := by
  unfold k2_pay1
  show matmul (F := Ideal) dot_S5000x256_S256x64_S5000x64_1_0_0_1_n_n none
          (truncf .bf16 (mulf (shapeCast S5000x256 x0 shapeCasts_S5000x256_S5000x256)
            (broadcastTo S5000x256 (shapeCast S5000x1 x1 shapeCasts_S5000x1_S5000x1) broadcasts_S5000x1_S5000x256)) bitsLt_bf16_f32)
          (truncf .bf16 x2 bitsLt_bf16_f32) (constant (F := Ideal) S5000x64 .f32 0x00000000#32) (ix2 p q) = _
  rw [mm_apply]
  refine Finset.sum_congr rfl fun l _ => ?_
  show shapeCast S5000x256 x0 shapeCasts_S5000x256_S5000x256 (ix2 p l)
      * broadcastTo S5000x256 (shapeCast S5000x1 x1 shapeCasts_S5000x1_S5000x1) broadcasts_S5000x1_S5000x256 (ix2 p l) * x2 (ix2 l q) = _
  rw [RowOps.broadcastTo_a1_ab_apply, shapeCast_self, shapeCast_self]

/-- The block index of the features, the norm column and the output on the row axis is the grid point, on the column axis 0;
    the weight matrix's block is always the whole array. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem N_eq : cfg2.N = 20 := by decide

/-- The feature block of point t at (p, l) is the feature array at (5000·t + p, l). -/
theorem xblk_apply (c : Dev nD) (t : Fin cfg2.N) (p : Fin 5000) (l : Fin 256) (r : Fin 100000) (hr : r.val = 5000 * t.val + p.val) :
    (iblk2 V c 0 t : Vec Ideal S5000x256 .f32) (ix2 p l) = (V c main_v28 : S100000x256.Idx → EReal) (ix2 r l) := by
  obtain ⟨e0, e1, -⟩ := idx_facts t
  unfold iblk2
  rw [View.read_apply]
  show V c main_v28 _ = V c main_v28 _
  congr 1
  funext a
  apply Fin.ext
  match a with
  | ⟨0, _⟩ => show win2_0.index t 0 * 5000 + 1 * p.val = r.val; rw [e0, hr]; omega
  | ⟨1, _⟩ => show win2_0.index t 1 * 256 + 1 * l.val = l.val; rw [e1]; omega

/-- The norm block of point t at (p, 0) is the norm column at (5000·t + p, 0). -/
theorem nblk_apply (c : Dev nD) (t : Fin cfg2.N) (p : Fin 5000) (r : Fin 100000) (hr : r.val = 5000 * t.val + p.val) :
    (iblk2 V c 1 t : Vec Ideal S5000x1 .f32) (ix2 p (0 : Fin 1)) = (V c main_v29 : S100000x1.Idx → EReal) (ix2 r (0 : Fin 1)) := by
  obtain ⟨-, -, e0, e1, -⟩ := idx_facts t
  unfold iblk2
  rw [View.read_apply]
  show V c main_v29 _ = V c main_v29 _
  congr 1
  funext a
  apply Fin.ext
  match a with
  | ⟨0, _⟩ => show win2_1.index t 0 * 5000 + 1 * p.val = r.val; rw [e0, hr]; omega
  | ⟨1, _⟩ => show win2_1.index t 1 * 1 + 1 * 0 = 0; rw [e1]

/-- The weight block of any point is the weight matrix. -/
theorem wblk_apply (c : Dev nD) (t : Fin cfg2.N) (l : Fin 256) (q : Fin 64) :
    (iblk2 V c 2 t : Vec Ideal S256x64 .f32) (ix2 l q) = (V c main_arg5 : S256x64.Idx → EReal) (ix2 l q) := by
  obtain ⟨-, -, -, -, e0, e1, -⟩ := idx_facts t
  unfold iblk2
  rw [View.read_apply]
  show V c main_arg5 _ = V c main_arg5 _
  congr 1
  funext a
  apply Fin.ext
  match a with
  | ⟨0, _⟩ => show win2_2.index t 0 * 256 + 1 * l.val = l.val; rw [e0]; omega
  | ⟨1, _⟩ => show win2_2.index t 1 * 64 + 1 * q.val = q.val; rw [e1]; omega

/-- The place of (p, q) of point t's output block in the array: (5000·t + p, q). -/
theorem emb_apply (t : Fin cfg2.N) (p : Fin 5000) (q : Fin 64) (r : Fin 100000) (hr : r.val = 5000 * t.val + p.val) :
    ((cfg2.win 3).blk t).view.emb (ix2 p q) = (ix2 r q : S100000x64.Idx) := by
  obtain ⟨-, -, -, -, -, -, e0, e1⟩ := idx_facts t
  funext a
  apply Fin.ext
  match a with
  | ⟨0, _⟩ => show win2_3.index t 0 * 5000 + 1 * p.val = r.val; rw [e0, hr]; omega
  | ⟨1, _⟩ => show win2_3.index t 1 * 64 + 1 * q.val = q.val; rw [e1]; omega

/-- What point t writes back is block t of the scaled features' product with the weights. -/
theorem flushed_eq (c : Dev nD) (nout : FVec Ideal S100000 .f32)
    (hn : (V c main_v29 : S100000x1.Idx → EReal) = shapeCast S100000x1 nout shapeCasts_S100000_S100000x1) (t : Fin cfg2.N) :
    (dat2 V c).flushed 3 t
      = ((cfg2.win 3).blk t).view.read (Elt Ideal) (prod (scaleRows (V c main_v28) nout) (V c main_arg5)) := by
  show (cfg2.win 3).cut (grid2.coords t) ((dat2 V c).after 3 t) = _
  rw [after2_3]
  unfold out2_3
  rw [View.canon_unit_zero hz]
  simp only [View.ld_unit_zero (S := S5000x256) hz, View.ld_unit_zero (S := S5000x1) hz, View.ld_unit_zero (S := S256x64) hz]
  funext j
  obtain ⟨p, q, rfl⟩ : ∃ (p : Fin 5000) (q : Fin 64), j = ix2 p q := ⟨j 0, j 1, eq_ix2 j⟩
  have hr : 5000 * t.val + p.val < 100000 := by have := t.isLt; have := N_eq; omega
  refine (pay_apply _ _ _ p q).trans ?_
  rw [nblk_apply V c t p ⟨_, hr⟩ rfl, hn, RowOps.shapeCast_a_a1_apply]
  rw [View.read_apply, emb_apply t p q ⟨_, hr⟩ rfl, prod_apply]
  exact Finset.sum_congr rfl fun l _ => by rw [xblk_apply V c t p l ⟨_, hr⟩ rfl, wblk_apply V c t l q, scaleRows_apply]

/-- Every row of the array lies in the block of the point its index names. -/
theorem cover (i : S100000x64.Idx) : ∃ t : Fin cfg2.N, (cfg2.win 3).flush t = true ∧ i ∈ ((cfg2.win 3).blk t).view.set := by
  have h0 : (i 0).val < 100000 := (i 0).isLt
  have h1 : (i 1).val < 64 := (i 1).isLt
  let t : Fin cfg2.N := ⟨(i 0).val / 5000, by have := N_eq; omega⟩
  obtain ⟨-, -, -, -, -, -, e0, e1⟩ := idx_facts t
  refine ⟨t, flush2_3 t, ?_⟩
  show i ∈ ((View.whole main_v30).slice (win2_3.rect t)).set
  rw [View.set_slice_whole, Rect.mem_set_unit]
  intro a
  match a with
  | ⟨0, _⟩ => show win2_3.index t 0 * 5000 ≤ (i 0).val ∧ (i 0).val < win2_3.index t 0 * 5000 + 5000; rw [e0]; show (i 0).val / 5000 * 5000 ≤ _ ∧ _ < (i 0).val / 5000 * 5000 + 5000; omega
  | ⟨1, _⟩ => show win2_3.index t 1 * 64 ≤ (i 1).val ∧ (i 1).val < win2_3.index t 1 * 64 + 64; rw [e1]; omega

/-- THE REGION'S VALUE: from any entry contents whose norm column is the vector `nout` as a column, the region leaves the
    product of the row-scaled features with the weight matrix. -/
theorem value (c : Dev nD) (nout : FVec Ideal S100000 .f32)
    (hn : (V c main_v29 : S100000x1.Idx → EReal) = shapeCast S100000x1 nout shapeCasts_S100000_S100000x1) :
    (dat2 V c).arrAt 3 cfg2.N = prod (scaleRows (V c main_v28) nout) (V c main_arg5) :=
  (dat2 V c).arrAt_eq_of_cover 3 (prod (scaleRows (V c main_v28) nout) (V c main_arg5)) (fun t _ => flushed_eq V c nout hn t) cover

end Cert.KernelIdeal.Region2

end
-- ==== Proof.Region3.lean ====
/-
  The fourth kernel region: the aggregated projections, each row scaled by the node's destination-side norm, the bias
  row added.

  The grid has 20 points; point t holds rows 5000·t … 5000·t + 4999 of the aggregate and of the norm column and the whole
  bias row, and stores, at (p, q) of its block, a(5000·t + p, q) · n(5000·t + p) + b(q). The 20 blocks tile the 100000
  rows, so the array the region leaves is `addRow (scaleRows a n) b` of the arrays it found.
-/
import proofs.«100622_j16252156248489_1_alg».proof.Proof.Gen.KernelIdeal.Frame
import proofs.«100622_j16252156248489_1_alg».proof.Proof.Spec
import proofs.«100622_j16252156248489_1_alg».proof.Proof.LibRowOps
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the aggregate's entry times the norm column's entry of the same row, plus the bias
    row's entry of the same column. -/
theorem pay_apply (x0 : Vec Ideal S5000x64 .f32) (x1 : Vec Ideal S5000x1 .f32) (x2 : Vec Ideal S1x64 .f32) (p : Fin 5000) (q : Fin 64) :
    k3_pay1 (F := Ideal) x0 x1 x2 (ix2 p q) = x0 (ix2 p q) * x1 (ix2 p (0 : Fin 1)) + x2 (ix2 (0 : Fin 1) q) := by
  unfold k3_pay1
  show shapeCast S5000x64 x0 shapeCasts_S5000x64_S5000x64 (ix2 p q)
      * broadcastTo S5000x64 (shapeCast S5000x1 x1 shapeCasts_S5000x1_S5000x1) broadcasts_S5000x1_S5000x64 (ix2 p q)
      + broadcastTo S5000x64 (shapeCast S1x64 x2 shapeCasts_S1x64_S1x64) broadcasts_S1x64_S5000x64 (ix2 p q) = _
  rw [RowOps.broadcastTo_a1_ab_apply, broadcastTo_1b_ab_apply, shapeCast_self, shapeCast_self, shapeCast_self]

/-- The block index of the aggregate, the norm column and the output on the row axis is the grid point, on the column axis 0;
    the bias row's block is always the whole row. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem N_eq : cfg3.N = 20 := by decide

/-- The aggregate's block of point t at (p, q) is the aggregate at (5000·t + p, q). -/
theorem ablk_apply (c : Dev nD) (t : Fin cfg3.N) (p : Fin 5000) (q : Fin 64) (r : Fin 100000) (hr : r.val = 5000 * t.val + p.val) :
    (iblk3 V c 0 t : Vec Ideal S5000x64 .f32) (ix2 p q) = (V c main_v40 : S100000x64.Idx → EReal) (ix2 r q) := by
  obtain ⟨e0, e1, -⟩ := idx_facts t
  unfold iblk3
  rw [View.read_apply]
  show V c main_v40 _ = V c main_v40 _
  congr 1
  funext a
  apply Fin.ext
  match a with
  | ⟨0, _⟩ => show win3_0.index t 0 * 5000 + 1 * p.val = r.val; rw [e0, hr]; omega
  | ⟨1, _⟩ => show win3_0.index t 1 * 64 + 1 * q.val = q.val; rw [e1]; omega

/-- The norm block of point t at (p, 0) is the norm column at (5000·t + p, 0). -/
theorem nblk_apply (c : Dev nD) (t : Fin cfg3.N) (p : Fin 5000) (r : Fin 100000) (hr : r.val = 5000 * t.val + p.val) :
    (iblk3 V c 1 t : Vec Ideal S5000x1 .f32) (ix2 p (0 : Fin 1)) = (V c main_v41 : S100000x1.Idx → EReal) (ix2 r (0 : Fin 1)) := by
  obtain ⟨-, -, e0, e1, -⟩ := idx_facts t
  unfold iblk3
  rw [View.read_apply]
  show V c main_v41 _ = V c main_v41 _
  congr 1
  funext a
  apply Fin.ext
  match a with
  | ⟨0, _⟩ => show win3_1.index t 0 * 5000 + 1 * p.val = r.val; rw [e0, hr]; omega
  | ⟨1, _⟩ => show win3_1.index t 1 * 1 + 1 * 0 = 0; rw [e1]

/-- The bias block of any point at (0, q) is the bias row at (0, q). -/
theorem bblk_apply (c : Dev nD) (t : Fin cfg3.N) (q : Fin 64) :
    (iblk3 V c 2 t : Vec Ideal S1x64 .f32) (ix2 (0 : Fin 1) q) = (V c main_v42 : S1x64.Idx → EReal) (ix2 (0 : Fin 1) q) := by
  obtain ⟨-, -, -, -, e0, e1, -⟩ := idx_facts t
  unfold iblk3
  rw [View.read_apply]
  show V c main_v42 _ = V c main_v42 _
  congr 1
  funext a
  apply Fin.ext
  match a with
  | ⟨0, _⟩ => show win3_2.index t 0 * 1 + 1 * 0 = 0; rw [e0]
  | ⟨1, _⟩ => show win3_2.index t 1 * 64 + 1 * q.val = q.val; rw [e1]; omega

/-- The place of (p, q) of point t's output block in the array: (5000·t + p, q). -/
theorem emb_apply (t : Fin cfg3.N) (p : Fin 5000) (q : Fin 64) (r : Fin 100000) (hr : r.val = 5000 * t.val + p.val) :
    ((cfg3.win 3).blk t).view.emb (ix2 p q) = (ix2 r q : S100000x64.Idx) := by
  obtain ⟨-, -, -, -, -, -, e0, e1⟩ := idx_facts t
  funext a
  apply Fin.ext
  match a with
  | ⟨0, _⟩ => show win3_3.index t 0 * 5000 + 1 * p.val = r.val; rw [e0, hr]; omega
  | ⟨1, _⟩ => show win3_3.index t 1 * 64 + 1 * q.val = q.val; rw [e1]; omega

/-- What point t writes back is block t of the scaled aggregate with the bias row added. -/
theorem flushed_eq (c : Dev nD) (nin : FVec Ideal S100000 .f32) (b2 : FVec Ideal S64 .f32)
    (hn : (V c main_v41 : S100000x1.Idx → EReal) = shapeCast S100000x1 nin shapeCasts_S100000_S100000x1)
    (hb : (V c main_v42 : S1x64.Idx → EReal) = shapeCast S1x64 b2 shapeCasts_S64_S1x64) (t : Fin cfg3.N) :
    (dat3 V c).flushed 3 t = ((cfg3.win 3).blk t).view.read (Elt Ideal) (addRow (scaleRows (V c main_v40) nin) b2) := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  have hr : 5000 * t.val + p.val < 100000 := by have := t.isLt; have := N_eq; omega
  refine (pay_apply _ _ _ p q).trans ?_
  rw [ablk_apply V c t p q ⟨_, hr⟩ rfl, nblk_apply V c t p ⟨_, hr⟩ rfl, bblk_apply V c t q, hn, hb,
    RowOps.shapeCast_a_a1_apply, shapeCast_a_1a_apply]
  rw [View.read_apply, emb_apply t p q ⟨_, hr⟩ rfl]
  rfl

/-- Every row of the array lies in the block of the point its index names. -/
theorem cover (i : S100000x64.Idx) : ∃ t : Fin cfg3.N, (cfg3.win 3).flush t = true ∧ i ∈ ((cfg3.win 3).blk t).view.set := by
  have h0 : (i 0).val < 100000 := (i 0).isLt
  have h1 : (i 1).val < 64 := (i 1).isLt
  let t : Fin cfg3.N := ⟨(i 0).val / 5000, by have := N_eq; omega⟩
  obtain ⟨-, -, -, -, -, -, e0, e1⟩ := idx_facts t
  refine ⟨t, flush3_3 t, ?_⟩
  show i ∈ ((View.whole main_v43).slice (win3_3.rect t)).set
  rw [View.set_slice_whole, Rect.mem_set_unit]
  intro a
  match a with
  | ⟨0, _⟩ => show win3_3.index t 0 * 5000 ≤ (i 0).val ∧ (i 0).val < win3_3.index t 0 * 5000 + 5000; rw [e0]; show (i 0).val / 5000 * 5000 ≤ _ ∧ _ < (i 0).val / 5000 * 5000 + 5000; omega
  | ⟨1, _⟩ => show win3_3.index t 1 * 64 ≤ (i 1).val ∧ (i 1).val < win3_3.index t 1 * 64 + 64; rw [e1]; omega

/-- THE REGION'S VALUE: from any entry contents whose norm column is the vector `nin` as a column and whose bias row is the
    vector `b2` as a row, the region leaves the aggregate with row p scaled by nin(p) and b2 added to every row. -/
theorem value (c : Dev nD) (nin : FVec Ideal S100000 .f32) (b2 : FVec Ideal S64 .f32)
    (hn : (V c main_v41 : S100000x1.Idx → EReal) = shapeCast S100000x1 nin shapeCasts_S100000_S100000x1)
    (hb : (V c main_v42 : S1x64.Idx → EReal) = shapeCast S1x64 b2 shapeCasts_S64_S1x64) :
    (dat3 V c).arrAt 3 cfg3.N = addRow (scaleRows (V c main_v40) nin) b2 :=
  (dat3 V c).arrAt_eq_of_cover 3 (addRow (scaleRows (V c main_v40) nin) b2) (fun t _ => flushed_eq V c nin b2 hn hb t) cover

end Cert.KernelIdeal.Region3

end
-- ==== Proof.KCompose.lean ====
/-
  The kernel program's result from what each segment boundary holds.

  Twelve facts about the boundaries' contents — what each host stretch leaves in the buffers the next region reads, in
  terms of the launch arrays and of the region before — give the result: the fourth region's value of the second sum
  over the edges of the third region's value of the second region's value of the first sum over the edges of the first
  region's value.
-/
import proofs.«100622_j16252156248489_1_alg».proof.Proof.Gen.KernelIdeal.Frame
import proofs.«100622_j16252156248489_1_alg».proof.Proof.Spec
import proofs.«100622_j16252156248489_1_alg».proof.Proof.KShared
import proofs.«100622_j16252156248489_1_alg».proof.Proof.Region0
import proofs.«100622_j16252156248489_1_alg».proof.Proof.Region1
import proofs.«100622_j16252156248489_1_alg».proof.Proof.Region2
import proofs.«100622_j16252156248489_1_alg».proof.Proof.Region3
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Compose

open Cert.KernelIdeal Cert.KernelIdeal.Gen Cert.KernelIdeal.Shared Cert.Layers

variable (m : (ℓ : Loc nD τ sig) → Buf (Elt Ideal) ℓ) (ρ : Dev nD → PrngReg)

/-- The result buffer after the last region, from the boundaries' contents. -/
theorem compose (c : Dev nD)
    (h : FVec Ideal S100000x128 .f32) (src dst : IVec S1600000 32) (W1 : FVec Ideal S128x256 .f32) (b1 : FVec Ideal S256 .f32)
    (W2 : FVec Ideal S256x64 .f32) (b2 : FVec Ideal S64 .f32)
    (h5_a0 : (W5 m ρ c (Proc.devRef .tc main_arg0) : S100000x128.Idx → EReal) = h)
    (h5_14 : (W5 m ρ c (Proc.devRef .tc main_v14) : S100000x1.Idx → EReal) = shapeCast S100000x1 (normOf src) shapeCasts_S100000_S100000x1)
    (h7_25 : (W7 m ρ c (Proc.devRef .tc main_v25) : S100000x128.Idx → EReal) = agg128 src dst (W6 m ρ c (Proc.devRef .tc main_v15)))
    (h7_a3 : (W7 m ρ c (Proc.devRef .tc main_arg3) : S128x256.Idx → EReal) = W1)
    (h7_26 : (W7 m ρ c (Proc.devRef .tc main_v26) : S100000x1.Idx → EReal) = shapeCast S100000x1 (normOf dst) shapeCasts_S100000_S100000x1)
    (h7_27 : (W7 m ρ c (Proc.devRef .tc main_v27) : S1x256.Idx → EReal) = shapeCast S1x256 b1 shapeCasts_S256_S1x256)
    (h9_28 : (W9 m ρ c (Proc.devRef .tc main_v28) : S100000x256.Idx → EReal) = W8 m ρ c (Proc.devRef .tc main_v28))
    (h9_29 : (W9 m ρ c (Proc.devRef .tc main_v29) : S100000x1.Idx → EReal) = shapeCast S100000x1 (normOf src) shapeCasts_S100000_S100000x1)
    (h9_a5 : (W9 m ρ c (Proc.devRef .tc main_arg5) : S256x64.Idx → EReal) = W2)
    (h11_40 : (W11 m ρ c (Proc.devRef .tc main_v40) : S100000x64.Idx → EReal) = agg64 src dst (W10 m ρ c (Proc.devRef .tc main_v30)))
    (h11_41 : (W11 m ρ c (Proc.devRef .tc main_v41) : S100000x1.Idx → EReal) = shapeCast S100000x1 (normOf dst) shapeCasts_S100000_S100000x1)
    (h11_42 : (W11 m ρ c (Proc.devRef .tc main_v42) : S1x64.Idx → EReal) = shapeCast S1x64 b2 shapeCasts_S64_S1x64) :
    (W12 m ρ c (Proc.devRef .tc main_v43) : S100000x64.Idx → EReal)
      = gcn (agg128 src dst) (agg64 src dst) h (normOf src) (normOf dst) W1 b1 W2 b2 := by
  -- the first region: the features scaled by the source-side norm
  have r0 : (W6 m ρ c (Proc.devRef .tc main_v15) : S100000x128.Idx → EReal) = scaleRows h (normOf src) := by
    refine (W6_arr m ρ c 2).trans ((Region0.value (V5 m ρ) c (normOf src) h5_14).trans ?_)
    show scaleRows (W5 m ρ c (Proc.devRef .tc main_arg0)) (normOf src) = _
    rw [h5_a0]
  -- the second region: the first layer's output
  have r1 : (W8 m ρ c (Proc.devRef .tc main_v28) : S100000x256.Idx → EReal)
      = relu (addRow (scaleRows (prod (agg128 src dst (scaleRows h (normOf src))) W1) (normOf dst)) b1) := by
    refine (W8_arr m ρ c 4).trans ((Region1.value (V7 m ρ) c (normOf dst) b1 h7_26 h7_27).trans ?_)
    show relu (addRow (scaleRows (prod (W7 m ρ c (Proc.devRef .tc main_v25)) (W7 m ρ c (Proc.devRef .tc main_arg3))) (normOf dst)) b1) = _
    rw [h7_25, h7_a3, r0]
  -- the third region: the second layer's projection
  have r2 : (W10 m ρ c (Proc.devRef .tc main_v30) : S100000x64.Idx → EReal)
      = prod (scaleRows (relu (addRow (scaleRows (prod (agg128 src dst (scaleRows h (normOf src))) W1) (normOf dst)) b1)) (normOf src)) W2 := by
    refine (W10_arr m ρ c 3).trans ((Region2.value (V9 m ρ) c (normOf src) h9_29).trans ?_)
    show prod (scaleRows (W9 m ρ c (Proc.devRef .tc main_v28)) (normOf src)) (W9 m ρ c (Proc.devRef .tc main_arg5)) = _
    rw [h9_28, h9_a5, r1]
  -- the fourth region: the second layer's output
  refine (W12_arr m ρ c 3).trans ((Region3.value (V11 m ρ) c (normOf dst) b2 h11_41 h11_42).trans ?_)
  show addRow (scaleRows (W11 m ρ c (Proc.devRef .tc main_v40)) (normOf dst)) b2 = _
  rw [h11_40, r2]
  rfl

end Cert.KernelIdeal.Compose

end
-- ==== Proof.KChain.lean ====
/-
  The kernel program's result as the two layers of the node features.

  The program's run leaves every buffer at a fold of its twelve segments over the launch memory. Read at the result's
  buffer, the fold is the fourth region's value of what the stretch before it computed, which in turn reads the third
  region's value, and so back to the launch memory: at each host stretch a buffer is either one the stretch computes (its
  operations' term of the buffers before) or one it leaves alone, and at each region one of the region's arrays or one it
  leaves alone.
-/
import proofs.«100622_j16252156248489_1_alg».proof.Proof.Gen.KernelIdeal.Frame
import proofs.«100622_j16252156248489_1_alg».proof.Proof.Spec
import proofs.«100622_j16252156248489_1_alg».proof.Proof.KShared
import proofs.«100622_j16252156248489_1_alg».proof.Proof.Region0
import proofs.«100622_j16252156248489_1_alg».proof.Proof.Region1
import proofs.«100622_j16252156248489_1_alg».proof.Proof.Region2
import proofs.«100622_j16252156248489_1_alg».proof.Proof.Region3
import proofs.«100622_j16252156248489_1_alg».proof.Proof.KCompose
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.KernelIdeal.Shared Cert.Layers

/-! ## A buffer a stretch does not write

Each stretch's written buffers are listed once; a reference outside the list keeps its contents through the stretch. -/
section Keep
variable (W : Valuation τ sig (Elt Ideal))

/-- The singleton of a listed reference lies in the list's image. -/
theorem single_sub {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map.mpr ⟨y, h, rfl⟩))

/-- The buffers the operations of this stretch write, in order. -/
abbrev wr0 : List (Ref sig .tc) := [main_cst, main_v0, main_cst_0, main_v1, main_v2, main_v3, main_cst_1]

/-- A buffer the stretch does not write is as it was. -/
theorem keep0 (r : Ref sig .tc) (hr : r ∉ wr0 := by decide) :
    StableHlo.after hostOps0 W (Proc.devRef .tc r) = W (Proc.devRef .tc r) :=
  StableHlo.after_of_writes_sub (W := wr0) hostOps0 W ⟨single_sub (by decide), single_sub (by decide), single_sub (by decide), single_sub (by decide), single_sub (by decide), single_sub (by decide), single_sub (by decide)⟩ hr

/-- The buffers the operations of this stretch write, in order. -/
abbrev wr1 : List (Ref sig .tc) := [main_c, main_v16, main_v17, main_c_7, main_v18, main_v19, main_v20, main_v21, main_v22, main_cst_8, main_v23, main_v24, main_v25, main_v26, main_v27]

/-- A buffer the stretch does not write is as it was. -/
theorem keep1 (r : Ref sig .tc) (hr : r ∉ wr1 := by decide) :
    StableHlo.after hostOps1 W (Proc.devRef .tc r) = W (Proc.devRef .tc r) :=
  StableHlo.after_of_writes_sub (W := wr1) hostOps1 W ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩ hr

/-- The buffers the operations of this stretch write, in order. -/
abbrev wr2 : List (Ref sig .tc) := [main_v29]

/-- A buffer the stretch does not write is as it was. -/
theorem keep2 (r : Ref sig .tc) (hr : r ∉ wr2 := by decide) :
    StableHlo.after hostOps2 W (Proc.devRef .tc r) = W (Proc.devRef .tc r) :=
  StableHlo.after_of_writes_sub (W := wr2) hostOps2 W (single_sub (by decide)) hr

/-- The buffers the operations of this stretch write, in order. -/
abbrev wr3 : List (Ref sig .tc) := [main_c_9, main_v31, main_v32, main_c_10, main_v33, main_v34, main_v35, main_v36, main_v37, main_cst_11, main_v38, main_v39, main_v40, main_v41, main_v42]

/-- A buffer the stretch does not write is as it was. -/
theorem keep3 (r : Ref sig .tc) (hr : r ∉ wr3 := by decide) :
    StableHlo.after hostOps3 W (Proc.devRef .tc r) = W (Proc.devRef .tc r) :=
  StableHlo.after_of_writes_sub (W := wr3) hostOps3 W ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩ hr

/-- The buffers the operations of this stretch write, in order. -/
abbrev wr0_1 : List (Ref sig .tc) := [main_call0_v0, main_call0_v1, main_v4]

/-- A buffer the stretch does not write is as it was. -/
theorem keep0_1 (r : Ref sig .tc) (hr : r ∉ wr0_1 := by decide) :
    StableHlo.after hostOps0_1 W (Proc.devRef .tc r) = W (Proc.devRef .tc r) :=
  StableHlo.after_of_writes_sub (W := wr0_1) hostOps0_1 W ⟨single_sub (by decide), single_sub (by decide), single_sub (by decide)⟩ hr

/-- The buffers the operations of this stretch write, in order. -/
abbrev wr0_2 : List (Ref sig .tc) := [main_cst_2, main_v5, main_v6, main_cst_3, main_v7, main_cst_4, main_v8, main_v9, main_v10, main_cst_5]

/-- A buffer the stretch does not write is as it was. -/
theorem keep0_2 (r : Ref sig .tc) (hr : r ∉ wr0_2 := by decide) :
    StableHlo.after hostOps0_2 W (Proc.devRef .tc r) = W (Proc.devRef .tc r) :=
  StableHlo.after_of_writes_sub (W := wr0_2) hostOps0_2 W ⟨single_sub (by decide), single_sub (by decide), single_sub (by decide), single_sub (by decide), single_sub (by decide), single_sub (by decide), single_sub (by decide), single_sub (by decide), single_sub (by decide), single_sub (by decide)⟩ hr

/-- The buffers the operations of this stretch write, in order. -/
abbrev wr0_3 : List (Ref sig .tc) := [main_call1_v0, main_call1_v1, main_v11]

/-- A buffer the stretch does not write is as it was. -/
theorem keep0_3 (r : Ref sig .tc) (hr : r ∉ wr0_3 := by decide) :
    StableHlo.after hostOps0_3 W (Proc.devRef .tc r) = W (Proc.devRef .tc r) :=
  StableHlo.after_of_writes_sub (W := wr0_3) hostOps0_3 W ⟨single_sub (by decide), single_sub (by decide), single_sub (by decide)⟩ hr

/-- The buffers the operations of this stretch write, in order. -/
abbrev wr0_4 : List (Ref sig .tc) := [main_cst_6, main_v12, main_v13, main_v14]

/-- A buffer the stretch does not write is as it was. -/
theorem keep0_4 (r : Ref sig .tc) (hr : r ∉ wr0_4 := by decide) :
    StableHlo.after hostOps0_4 W (Proc.devRef .tc r) = W (Proc.devRef .tc r) :=
  StableHlo.after_of_writes_sub (W := wr0_4) hostOps0_4 W ⟨single_sub (by decide), single_sub (by decide), single_sub (by decide), single_sub (by decide)⟩ hr

end Keep

/-! ## The host stretches at any contents

Each fact is stated at an arbitrary valuation `W` of the buffers before the stretch: the buffer an operation writes holds the
operation's function of the buffers it reads, and a buffer no operation of the stretch writes is as it was. -/

section Stretch
variable (W : Valuation τ sig (Elt Ideal))

/-- The edge count per node over the first index array, before the clamp. -/
theorem h0_v3 :
    StableHlo.after hostOps0 W (Proc.devRef .tc main_v3)
      = Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (W (Proc.devRef .tc main_arg1)))
        (broadcastInDim S1600000 ![] bcast_S_S1600000 (constant (F := Ideal) S_ .f32 0x3F800000#32)) := by
  after_results

/-- The clamp's lower bound, one. -/
theorem h0_cst1 :
    StableHlo.after hostOps0 W (Proc.devRef .tc main_cst_1) = constant (F := Ideal) S_ .f32 0x3F800000#32 := by
  after_results

/-- The first clamp: the larger of one and the count. -/
theorem h01_v4 :
    (StableHlo.after hostOps0_1 W (Proc.devRef .tc main_v4) : FVec Ideal S100000 .f32)
      = (maximumf (broadcastInDim S100000 ![] bcast_S_S100000 (id (W (Proc.devRef .tc main_cst_1)))) (W (Proc.devRef .tc main_v3)) : FVec Ideal S100000 .f32) := by
  after_results
  rfl

/-- The first norm: the clamped count to the power −1/2. -/
theorem h02_v6 :
    StableHlo.after hostOps0_2 W (Proc.devRef .tc main_v6)
      = Host.powf (W (Proc.devRef .tc main_v4)) (broadcastInDim S100000 ![] bcast_S_S100000 (constant (F := Ideal) S_ .f32 0xBF000000#32)) := by
  after_results

/-- The edge count per node over the second index array, before the clamp. -/
theorem h02_v10 :
    StableHlo.after hostOps0_2 W (Proc.devRef .tc main_v10)
      = Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (W (Proc.devRef .tc main_arg2)))
        (broadcastInDim S1600000 ![] bcast_S_S1600000 (constant (F := Ideal) S_ .f32 0x3F800000#32)) := by
  after_results

/-- The second clamp's lower bound, one. -/
theorem h02_cst5 :
    StableHlo.after hostOps0_2 W (Proc.devRef .tc main_cst_5) = constant (F := Ideal) S_ .f32 0x3F800000#32 := by
  after_results

/-- The second clamp. -/
theorem h03_v11 :
    (StableHlo.after hostOps0_3 W (Proc.devRef .tc main_v11) : FVec Ideal S100000 .f32)
      = (maximumf (broadcastInDim S100000 ![] bcast_S_S100000 (id (W (Proc.devRef .tc main_cst_5)))) (W (Proc.devRef .tc main_v10)) : FVec Ideal S100000 .f32) := by
  after_results
  rfl

/-- The second norm. -/
theorem h04_v13 :
    StableHlo.after hostOps0_4 W (Proc.devRef .tc main_v13)
      = Host.powf (W (Proc.devRef .tc main_v11)) (broadcastInDim S100000 ![] bcast_S_S100000 (constant (F := Ideal) S_ .f32 0xBF000000#32)) := by
  after_results

/-- The first norm as a column: the first region's second operand. -/
theorem h04_v14 :
    (StableHlo.after hostOps0_4 W (Proc.devRef .tc main_v14) : S100000x1.Idx → EReal)
      = shapeCast S100000x1 (W (Proc.devRef .tc main_v6)) shapeCasts_S100000_S100000x1 := by
  after_results
  rfl

/-- The neighbours' sum of the first region's result. -/
theorem h1_v25 :
    StableHlo.after hostOps1 W (Proc.devRef .tc main_v25)
      = agg128 (W (Proc.devRef .tc main_arg1)) (W (Proc.devRef .tc main_arg2)) (W (Proc.devRef .tc main_v15)) := by
  after_results
  rfl

theorem h1_v26 :
    (StableHlo.after hostOps1 W (Proc.devRef .tc main_v26) : S100000x1.Idx → EReal)
      = shapeCast S100000x1 (W (Proc.devRef .tc main_v13)) shapeCasts_S100000_S100000x1 := by
  after_results
  rfl

theorem h1_v27 :
    (StableHlo.after hostOps1 W (Proc.devRef .tc main_v27) : S1x256.Idx → EReal)
      = shapeCast S1x256 (W (Proc.devRef .tc main_arg4)) shapeCasts_S256_S1x256 := by
  after_results
  rfl

theorem h2_v29 :
    (StableHlo.after hostOps2 W (Proc.devRef .tc main_v29) : S100000x1.Idx → EReal)
      = shapeCast S100000x1 (W (Proc.devRef .tc main_v6)) shapeCasts_S100000_S100000x1 := by
  after_results
  rfl

/-- The neighbours' sum of the third region's result. -/
theorem h3_v40 :
    StableHlo.after hostOps3 W (Proc.devRef .tc main_v40)
      = agg64 (W (Proc.devRef .tc main_arg1)) (W (Proc.devRef .tc main_arg2)) (W (Proc.devRef .tc main_v30)) := by
  after_results
  rfl

theorem h3_v41 :
    (StableHlo.after hostOps3 W (Proc.devRef .tc main_v41) : S100000x1.Idx → EReal)
      = shapeCast S100000x1 (W (Proc.devRef .tc main_v13)) shapeCasts_S100000_S100000x1 := by
  after_results
  rfl

theorem h3_v42 :
    (StableHlo.after hostOps3 W (Proc.devRef .tc main_v42) : S1x64.Idx → EReal)
      = shapeCast S1x64 (W (Proc.devRef .tc main_arg6)) shapeCasts_S64_S1x64 := by
  after_results
  rfl

end Stretch

section Norms
variable (W : Valuation τ sig (Elt Ideal))

/-- The first three stretches leave the norm of the first index array at its buffer. -/
theorem n6 :
    StableHlo.after hostOps0_2 (StableHlo.after hostOps0_1 (StableHlo.after hostOps0 W)) (Proc.devRef .tc main_v6)
      = normOf (W (Proc.devRef .tc main_arg1)) := by
  rw [h02_v6, h01_v4, h0_cst1, h0_v3]
  rfl

/-- The first five stretches leave the norm of the second index array at its buffer. -/
theorem n13 :
    StableHlo.after hostOps0_4 (StableHlo.after hostOps0_3 (StableHlo.after hostOps0_2 (StableHlo.after hostOps0_1 (StableHlo.after hostOps0 W))))
        (Proc.devRef .tc main_v13)
      = normOf (W (Proc.devRef .tc main_arg2)) := by
  rw [h04_v13, h03_v11, h02_cst5, h02_v10, keep0_1 _ main_arg2, keep0 _ main_arg2]
  rfl
end Norms

/-! ## The boundaries of the run

The launch arrays are written by no stretch and by no region, so every boundary holds them as launched; the two norms are
carried from the stretch that computes them to the stretches that reshape them. -/

section Run
variable (m : (ℓ : Loc nD τ sig) → Buf (Elt Ideal) ℓ) (ρ : Dev nD → PrngReg) (c : Dev nD)

/-- A buffer none of the first five stretches writes holds its launch contents at the first region's entry. -/
theorem c05 (r : Ref sig .tc) (h0 : r ∉ wr0 := by decide) (h1 : r ∉ wr0_1 := by decide) (h2 : r ∉ wr0_2 := by decide)
    (h3 : r ∉ wr0_3 := by decide) (h4 : r ∉ wr0_4 := by decide) :
    W5 m ρ c (Proc.devRef .tc r) = m ((c : Thread nD τ).loc r) :=
  (keep0_4 _ r h4).trans ((keep0_3 _ r h3).trans ((keep0_2 _ r h2).trans ((keep0_1 _ r h1).trans (keep0 (W0 m ρ c) r h0))))

/-- … and, if it is none of the first region's arrays, at the first region's exit. -/
theorem c06 (r : Ref sig .tc) (h0 : r ∉ wr0 := by decide) (h1 : r ∉ wr0_1 := by decide) (h2 : r ∉ wr0_2 := by decide)
    (h3 : r ∉ wr0_3 := by decide) (h4 : r ∉ wr0_4 := by decide) (hR0 : ∀ w, Pipeline.arrRef spec0 w ≠ r := by decide) :
    W6 m ρ c (Proc.devRef .tc r) = m ((c : Thread nD τ).loc r) :=
  (W6_of_ne m ρ c r hR0).trans (c05 m ρ c r h0 h1 h2 h3 h4)

/-- … at the second region's entry. -/
theorem c07 (r : Ref sig .tc) (h0 : r ∉ wr0 := by decide) (h1 : r ∉ wr0_1 := by decide) (h2 : r ∉ wr0_2 := by decide)
    (h3 : r ∉ wr0_3 := by decide) (h4 : r ∉ wr0_4 := by decide) (hR0 : ∀ w, Pipeline.arrRef spec0 w ≠ r := by decide)
    (h5 : r ∉ wr1 := by decide) :
    W7 m ρ c (Proc.devRef .tc r) = m ((c : Thread nD τ).loc r) :=
  (keep1 _ r h5).trans (c06 m ρ c r h0 h1 h2 h3 h4 hR0)

/-- … at the third region's entry. -/
theorem c09 (r : Ref sig .tc) (h0 : r ∉ wr0 := by decide) (h1 : r ∉ wr0_1 := by decide) (h2 : r ∉ wr0_2 := by decide)
    (h3 : r ∉ wr0_3 := by decide) (h4 : r ∉ wr0_4 := by decide) (hR0 : ∀ w, Pipeline.arrRef spec0 w ≠ r := by decide)
    (h5 : r ∉ wr1 := by decide) (hR1 : ∀ w, Pipeline.arrRef spec1 w ≠ r := by decide) (h6 : r ∉ wr2 := by decide) :
    W9 m ρ c (Proc.devRef .tc r) = m ((c : Thread nD τ).loc r) :=
  (keep2 _ r h6).trans ((W8_of_ne m ρ c r hR1).trans (c07 m ρ c r h0 h1 h2 h3 h4 hR0 h5))

/-- … at the third region's exit. -/
theorem c010 (r : Ref sig .tc) (h0 : r ∉ wr0 := by decide) (h1 : r ∉ wr0_1 := by decide) (h2 : r ∉ wr0_2 := by decide)
    (h3 : r ∉ wr0_3 := by decide) (h4 : r ∉ wr0_4 := by decide) (hR0 : ∀ w, Pipeline.arrRef spec0 w ≠ r := by decide)
    (h5 : r ∉ wr1 := by decide) (hR1 : ∀ w, Pipeline.arrRef spec1 w ≠ r := by decide) (h6 : r ∉ wr2 := by decide)
    (hR2 : ∀ w, Pipeline.arrRef spec2 w ≠ r := by decide) :
    W10 m ρ c (Proc.devRef .tc r) = m ((c : Thread nD τ).loc r) :=
  (W10_of_ne m ρ c r hR2).trans (c09 m ρ c r h0 h1 h2 h3 h4 hR0 h5 hR1 h6)

/-- The norm of the first index array, where the third stretch leaves it. -/
theorem v6_3 : W3 m ρ c (Proc.devRef .tc main_v6) = normOf (m ((c : Thread nD τ).loc main_arg1)) :=
  n6 (W0 m ρ c)

/-- … at the fifth stretch's entry. -/
theorem v6_4 : W4 m ρ c (Proc.devRef .tc main_v6) = normOf (m ((c : Thread nD τ).loc main_arg1)) :=
  (keep0_3 _ main_v6).trans (v6_3 m ρ c)

/-- … at the second region's exit. -/
theorem v6_8 : W8 m ρ c (Proc.devRef .tc main_v6) = normOf (m ((c : Thread nD τ).loc main_arg1)) :=
  (W8_of_ne m ρ c main_v6 (by decide)).trans ((keep1 _ main_v6).trans ((W6_of_ne m ρ c main_v6 (by decide)).trans
    ((keep0_4 _ main_v6).trans (v6_4 m ρ c))))

/-- The norm of the second index array, at the first region's exit. -/
theorem v13_6 : W6 m ρ c (Proc.devRef .tc main_v13) = normOf (m ((c : Thread nD τ).loc main_arg2)) :=
  (W6_of_ne m ρ c main_v13 (by decide)).trans (n13 (W0 m ρ c))

/-- … at the third region's exit. -/
theorem v13_10 : W10 m ρ c (Proc.devRef .tc main_v13) = normOf (m ((c : Thread nD τ).loc main_arg2)) :=
  (W10_of_ne m ρ c main_v13 (by decide)).trans ((keep2 _ main_v13).trans ((W8_of_ne m ρ c main_v13 (by decide)).trans
    ((keep1 _ main_v13).trans (v13_6 m ρ c))))

/-! ### What each region finds at its operands -/

theorem h5_a0 : (W5 m ρ c (Proc.devRef .tc main_arg0) : S100000x128.Idx → EReal) = m ((c : Thread nD τ).loc main_arg0) :=
  c05 m ρ c main_arg0

theorem h5_14 : (W5 m ρ c (Proc.devRef .tc main_v14) : S100000x1.Idx → EReal)
      = shapeCast S100000x1 (normOf (m ((c : Thread nD τ).loc main_arg1))) shapeCasts_S100000_S100000x1 :=
  (h04_v14 (W4 m ρ c)).trans (congrArg (fun n => shapeCast S100000x1 n shapeCasts_S100000_S100000x1) (v6_4 m ρ c))

theorem h7_25 : (W7 m ρ c (Proc.devRef .tc main_v25) : S100000x128.Idx → EReal)
      = agg128 (m ((c : Thread nD τ).loc main_arg1)) (m ((c : Thread nD τ).loc main_arg2)) (W6 m ρ c (Proc.devRef .tc main_v15)) :=
  (h1_v25 (W6 m ρ c)).trans (by rw [c06 m ρ c main_arg1, c06 m ρ c main_arg2])

theorem h7_a3 : (W7 m ρ c (Proc.devRef .tc main_arg3) : S128x256.Idx → EReal) = m ((c : Thread nD τ).loc main_arg3) :=
  c07 m ρ c main_arg3

theorem h7_26 : (W7 m ρ c (Proc.devRef .tc main_v26) : S100000x1.Idx → EReal)
      = shapeCast S100000x1 (normOf (m ((c : Thread nD τ).loc main_arg2))) shapeCasts_S100000_S100000x1 :=
  (h1_v26 (W6 m ρ c)).trans (congrArg (fun n => shapeCast S100000x1 n shapeCasts_S100000_S100000x1) (v13_6 m ρ c))

theorem h7_27 : (W7 m ρ c (Proc.devRef .tc main_v27) : S1x256.Idx → EReal)
      = shapeCast S1x256 (m ((c : Thread nD τ).loc main_arg4)) shapeCasts_S256_S1x256 :=
  (h1_v27 (W6 m ρ c)).trans (congrArg (fun b => shapeCast S1x256 b shapeCasts_S256_S1x256) (c06 m ρ c main_arg4))

theorem h9_28 : (W9 m ρ c (Proc.devRef .tc main_v28) : S100000x256.Idx → EReal) = W8 m ρ c (Proc.devRef .tc main_v28) :=
  keep2 (W8 m ρ c) main_v28

theorem h9_29 : (W9 m ρ c (Proc.devRef .tc main_v29) : S100000x1.Idx → EReal)
      = shapeCast S100000x1 (normOf (m ((c : Thread nD τ).loc main_arg1))) shapeCasts_S100000_S100000x1 :=
  (h2_v29 (W8 m ρ c)).trans (congrArg (fun n => shapeCast S100000x1 n shapeCasts_S100000_S100000x1) (v6_8 m ρ c))

theorem h9_a5 : (W9 m ρ c (Proc.devRef .tc main_arg5) : S256x64.Idx → EReal) = m ((c : Thread nD τ).loc main_arg5) :=
  c09 m ρ c main_arg5

theorem h11_40 : (W11 m ρ c (Proc.devRef .tc main_v40) : S100000x64.Idx → EReal)
      = agg64 (m ((c : Thread nD τ).loc main_arg1)) (m ((c : Thread nD τ).loc main_arg2)) (W10 m ρ c (Proc.devRef .tc main_v30)) :=
  (h3_v40 (W10 m ρ c)).trans (by rw [c010 m ρ c main_arg1, c010 m ρ c main_arg2])

theorem h11_41 : (W11 m ρ c (Proc.devRef .tc main_v41) : S100000x1.Idx → EReal)
      = shapeCast S100000x1 (normOf (m ((c : Thread nD τ).loc main_arg2))) shapeCasts_S100000_S100000x1 :=
  (h3_v41 (W10 m ρ c)).trans (congrArg (fun n => shapeCast S100000x1 n shapeCasts_S100000_S100000x1) (v13_10 m ρ c))

theorem h11_42 : (W11 m ρ c (Proc.devRef .tc main_v42) : S1x64.Idx → EReal)
      = shapeCast S1x64 (m ((c : Thread nD τ).loc main_arg6)) shapeCasts_S64_S1x64 :=
  (h3_v42 (W10 m ρ c)).trans (congrArg (fun b => shapeCast S1x64 b shapeCasts_S64_S1x64) (c010 m ρ c main_arg6))

end Run

variable (m : (ℓ : Loc nD τ sig) → Buf (Elt Ideal) ℓ) (ρ : Dev nD → PrngReg)

/-- THE KERNEL'S RESULT: the last boundary's contents at the result's buffer are the two layers of the launch arrays. -/
theorem result_eq (c : Dev nD) :
    (W12 m ρ c (Proc.devRef .tc main_v43) : S100000x64.Idx → EReal)
      = gcn (agg128 (m ((c : Thread nD τ).loc main_arg1)) (m ((c : Thread nD τ).loc main_arg2)))
          (agg64 (m ((c : Thread nD τ).loc main_arg1)) (m ((c : Thread nD τ).loc main_arg2)))
          (m ((c : Thread nD τ).loc main_arg0))
          (normOf (m ((c : Thread nD τ).loc main_arg1))) (normOf (m ((c : Thread nD τ).loc main_arg2)))
          (m ((c : Thread nD τ).loc main_arg3)) (m ((c : Thread nD τ).loc main_arg4))
          (m ((c : Thread nD τ).loc main_arg5)) (m ((c : Thread nD τ).loc main_arg6)) :=
  Compose.compose m ρ c _ _ _ _ _ _ _ (h5_a0 m ρ c) (h5_14 m ρ c) (h7_25 m ρ c) (h7_a3 m ρ c) (h7_26 m ρ c) (h7_27 m ρ c)
    (h9_28 m ρ c) (h9_29 m ρ c) (h9_a5 m ρ c) (h11_40 m ρ c) (h11_41 m ρ c) (h11_42 m ρ c)

end Cert.KernelIdeal.Chain

end
-- ==== Proof.RefValue.lean ====
/-
  The reference program's result as the two layers of the node features.

  The reference's run ends with its result at one composed term of the launch arrays. Entry by entry, a product with a
  twice-broadcast norm vector is a row scaling, a sum with a twice-broadcast bias vector adds a row, the host's matrix
  product is the sum over the contracted coordinate, and the maximum with a broadcast zero is the positive part; the degree
  norms and the sums over the edges are left as they are written.
-/
import proofs.«100622_j16252156248489_1_alg».proof.Proof.Gen.ReferenceIdeal.Run
import proofs.«100622_j16252156248489_1_alg».proof.Proof.Gen.ReferenceIdeal.Read
import proofs.«100622_j16252156248489_1_alg».proof.Proof.Spec
import proofs.«100622_j16252156248489_1_alg».proof.Proof.RShared
import proofs.«100622_j16252156248489_1_alg».proof.Proof.LibDenseLayer
import proofs.«100622_j16252156248489_1_alg».proof.Proof.LibRowOps
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Shared Cert.Layers

/-! ## The four row operations, as the host spells them -/

section RowOps
variable {α : Type} {a b k : ℕ}

/-- A vector `[a]` laid along axis 0 of a one-column matrix `[a, 1]` reads, at `(p, u)`, the vector at `p`. -/
theorem broadcastInDim_vec_col_apply (h : (⟨1, ![a]⟩ : Shape).BroadcastsInDim ⟨2, ![a, 1]⟩ ![0])
    (v : (⟨1, ![a]⟩ : Shape).Idx → α) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A one-column matrix `[a, 1]` repeated along `b` columns reads, at `(p, c)`, the column's entry `p`. -/
theorem broadcastInDim_oneCol_apply (h : (⟨2, ![a, 1]⟩ : Shape).BroadcastsInDim ⟨2, ![a, b]⟩ ![0, 1])
    (y : (⟨2, ![a, 1]⟩ : Shape).Idx → α) (p : Fin a) (c : Fin b) :
    broadcastInDim ⟨2, ![a, b]⟩ ![0, 1] h y (ix2 p c) = y (ix2 p (0 : Fin 1)) := by
  refine broadcastInDim_apply ![0, 1] h y (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The product with a vector laid as a column and the column repeated along the rows scales row `p` by the vector's
    entry `p`. -/
theorem mulf_col_eq (h1 : (⟨1, ![a]⟩ : Shape).BroadcastsInDim ⟨2, ![a, 1]⟩ ![0])
    (h2 : (⟨2, ![a, 1]⟩ : Shape).BroadcastsInDim ⟨2, ![a, b]⟩ ![0, 1])
    (x : FVec Ideal ⟨2, ![a, b]⟩ .f32) (n : FVec Ideal ⟨1, ![a]⟩ .f32) :
    mulf x (broadcastInDim ⟨2, ![a, b]⟩ ![0, 1] h2 (broadcastInDim ⟨2, ![a, 1]⟩ ![0] h1 n)) = scaleRows x n := by
  funext j
  obtain ⟨p, q, rfl⟩ : ∃ (p : Fin a) (q : Fin b), j = ix2 p q := ⟨j 0, j 1, eq_ix2 j⟩
  rw [mulf_apply, scaleRows_apply, broadcastInDim_oneCol_apply, broadcastInDim_vec_col_apply]

/-- The sum with a vector laid as a row and the row repeated down the rows adds the vector to every row. -/
theorem addf_row_eq (h1 : (⟨1, ![b]⟩ : Shape).BroadcastsInDim ⟨2, ![1, b]⟩ ![1])
    (h2 : (⟨2, ![1, b]⟩ : Shape).BroadcastsInDim ⟨2, ![a, b]⟩ ![0, 1])
    (y : FVec Ideal ⟨2, ![a, b]⟩ .f32) (v : FVec Ideal ⟨1, ![b]⟩ .f32) :
    addf y (broadcastInDim ⟨2, ![a, b]⟩ ![0, 1] h2 (broadcastInDim ⟨2, ![1, b]⟩ ![1] h1 v)) = addRow y v := by
  funext j
  obtain ⟨p, q, rfl⟩ : ∃ (p : Fin a) (q : Fin b), j = ix2 p q := ⟨j 0, j 1, eq_ix2 j⟩
  rw [addf_apply, addRow_apply, DenseLayer.bias_inDim_apply]

/-- The host's product of an a×k matrix with a k×b matrix is the sum over the contracted coordinate. -/
theorem dotGeneral_eq (w : DotDims.WF ⟨2, ![a, k]⟩ ⟨2, ![k, b]⟩ ⟨2, ![a, b]⟩ [1] [0] [0] [1] [] [])
    (A : FVec Ideal ⟨2, ![a, k]⟩ .f32) (B : FVec Ideal ⟨2, ![k, b]⟩ .f32) :
    Host.dotGeneral (⟨[1], [0], [0], [1], [], [], w⟩ : DotDims _ _ _) none A B = prod A B := by
  funext j
  obtain ⟨p, q, rfl⟩ : ∃ (p : Fin a) (q : Fin b), j = ix2 p q := ⟨j 0, j 1, eq_ix2 j⟩
  exact DenseLayer.dotGeneral_rows_apply w none .single A B p q

/-- The maximum with a broadcast zero is the positive part. -/
theorem maximumf_zero_eq (h : (⟨0, ![]⟩ : Shape).BroadcastsInDim ⟨2, ![a, b]⟩ ![])
    (y : FVec Ideal ⟨2, ![a, b]⟩ .f32) :
    maximumf y (broadcastInDim ⟨2, ![a, b]⟩ ![] h (constant (F := Ideal) ⟨0, ![]⟩ .f32 0x00000000#32)) = relu y := by
  funext j
  obtain ⟨p, q, rfl⟩ : ∃ (p : Fin a) (q : Fin b), j = ix2 p q := ⟨j 0, j 1, eq_ix2 j⟩
  rw [maximumf_apply, relu_apply, broadcastInDim_scalar_apply, constant_apply, Ideal.ofBits_zero_f32]

end RowOps

/-! ## The two products of the program -/

/-- The first layer's product, of the 100000×128 sums over the edges with the 128×256 weights. -/
theorem dot1_eq (A : FVec Ideal S100000x128 .f32) (B : FVec Ideal S128x256 .f32) :
    Host.dotGeneral dot_S100000x128_S128x256_S100000x256_1_0_0_1_n_n none A B
      = prod (a := 100000) (k := 128) (b := 256) A B :=
  dotGeneral_eq Facts₀.dot_S100000x128_S128x256_S100000x256_1_0_0_1_n_n_wf A B

/-- The second layer's product, of the 100000×256 features with the 256×64 weights. -/
theorem dot2_eq (A : FVec Ideal S100000x256 .f32) (B : FVec Ideal S256x64 .f32) :
    Host.dotGeneral dot_S100000x256_S256x64_S100000x64_1_0_0_1_n_n none A B
      = prod (a := 100000) (k := 256) (b := 64) A B :=
  dotGeneral_eq Facts₀.dot_S100000x256_S256x64_S100000x64_1_0_0_1_n_n_wf A B

/-- THE REFERENCE'S RESULT: its run's composed term is the two layers of the launch arrays. -/
theorem result_eq (m : (ℓ : Loc nD τ sig) → Buf (Elt Ideal) ℓ) (c : Dev nD) :
    (Cert.ReferenceIdeal.Value.res_main_v68 (F := Ideal) m c : S100000x64.Idx → EReal)
      = gcn (agg128 (m ((c.tc : Thread nD τ).loc main_arg1)) (m ((c.tc : Thread nD τ).loc main_arg2)))
          (agg64 (m ((c.tc : Thread nD τ).loc main_arg1)) (m ((c.tc : Thread nD τ).loc main_arg2)))
          (m ((c.tc : Thread nD τ).loc main_arg0))
          (normOf (m ((c.tc : Thread nD τ).loc main_arg1))) (normOf (m ((c.tc : Thread nD τ).loc main_arg2)))
          (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.Value.res_main_v68
  have s128 : ∀ (x : FVec Ideal S100000x128 .f32) (n : FVec Ideal S100000 .f32),
      mulf x (broadcastInDim S100000x128 ![0, 1] bcast_S100000x1_S100000x128_0_1
        (broadcastInDim S100000x1 ![0] bcast_S100000_S100000x1_0 n)) = scaleRows (a := 100000) (b := 128) x n :=
    fun x n => mulf_col_eq _ _ x n
  have s256 : ∀ (x : FVec Ideal S100000x256 .f32) (n : FVec Ideal S100000 .f32),
      mulf x (broadcastInDim S100000x256 ![0, 1] bcast_S100000x1_S100000x256_0_1
        (broadcastInDim S100000x1 ![0] bcast_S100000_S100000x1_0 n)) = scaleRows (a := 100000) (b := 256) x n :=
    fun x n => mulf_col_eq _ _ x n
  have s64 : ∀ (x : FVec Ideal S100000x64 .f32) (n : FVec Ideal S100000 .f32),
      mulf x (broadcastInDim S100000x64 ![0, 1] bcast_S100000x1_S100000x64_0_1
        (broadcastInDim S100000x1 ![0] bcast_S100000_S100000x1_0 n)) = scaleRows (a := 100000) (b := 64) x n :=
    fun x n => mulf_col_eq _ _ x n
  have a256 : ∀ (y : FVec Ideal S100000x256 .f32) (v : FVec Ideal S256 .f32),
      addf y (broadcastInDim S100000x256 ![0, 1] bcast_S1x256_S100000x256_0_1
        (broadcastInDim S1x256 ![1] bcast_S256_S1x256_1 v)) = addRow (a := 100000) (b := 256) y v :=
    fun y v => addf_row_eq _ _ y v
  have a64 : ∀ (y : FVec Ideal S100000x64 .f32) (v : FVec Ideal S64 .f32),
      addf y (broadcastInDim S100000x64 ![0, 1] bcast_S1x64_S100000x64_0_1
        (broadcastInDim S1x64 ![1] bcast_S64_S1x64_1 v)) = addRow (a := 100000) (b := 64) y v :=
    fun y v => addf_row_eq _ _ y v
  have r256 : ∀ (y : FVec Ideal S100000x256 .f32),
      maximumf y (broadcastInDim S100000x256 ![] bcast_S_S100000x256 (constant (F := Ideal) S_ .f32 0x00000000#32))
        = relu (a := 100000) (b := 256) y :=
    fun y => maximumf_zero_eq _ y
  simp only [s128, s256, s64, a256, a64, r256, dot1_eq, dot2_eq]
  rfl

end Cert.ReferenceIdeal.RefValue

end
-- ==== Proof.lean ====
/-
  The kernel against its reference: a two-layer graph convolution with symmetric degree normalisation.

  Both programs compute the degree norms of the nodes from the edge list, scale the node features by the source-side
  norm, sum the neighbours' rows over the edges, multiply by the first weight matrix, scale by the destination-side norm,
  add the first bias and take the positive part; then scale by the source-side norm, multiply by the second weight matrix,
  sum over the edges, scale by the destination-side norm and add the second bias. The kernel program does the four dense
  stages in four tiled regions (20 blocks of 5000 rows each) and the reference does them on whole arrays; the degree norms
  and the two sums over the edges are the same host operations in both. No stage mixes rows except the sums over the
  edges, which both programs apply to equal arrays, so at the ideal values the two results are one function of the
  arguments (Spec.lean's `gcn`), with no use of the inputs' finiteness: no sum is regrouped and no factor is moved across
  a sum.

  The kernel's run is the generated launch with the result array read in its post (KRun.lean); what that array holds is
  read through the program's segments (KChain.lean over Region0 … Region3); the reference's run is generated and its term
  is read layer by layer (RefValue.lean). The three frames are the generated ones; nothing was idealized by rewriting, so
  the preservation claim is trivial.
-/
import proofs.«100622_j16252156248489_1_alg».proof.Defs
import proofs.«100622_j16252156248489_1_alg».proof.Proof.Gen.Kernel
import proofs.«100622_j16252156248489_1_alg».proof.Proof.Gen.Kernel.Skeleton
import proofs.«100622_j16252156248489_1_alg».proof.Proof.Gen.Kernel.Launch
import proofs.«100622_j16252156248489_1_alg».proof.Proof.Gen.Kernel.Points
import proofs.«100622_j16252156248489_1_alg».proof.Proof.Gen.Kernel.Frame
import proofs.«100622_j16252156248489_1_alg».proof.Proof.Gen.KernelIdeal
import proofs.«100622_j16252156248489_1_alg».proof.Proof.Gen.KernelIdeal.Skeleton
import proofs.«100622_j16252156248489_1_alg».proof.Proof.Gen.KernelIdeal.Launch
import proofs.«100622_j16252156248489_1_alg».proof.Proof.Gen.KernelIdeal.Points
import proofs.«100622_j16252156248489_1_alg».proof.Proof.Gen.KernelIdeal.Frame
import proofs.«100622_j16252156248489_1_alg».proof.Proof.Gen.ReferenceIdeal
import proofs.«100622_j16252156248489_1_alg».proof.Proof.Gen.ReferenceIdeal.Run
import proofs.«100622_j16252156248489_1_alg».proof.Proof.Gen.Pre_finite_inputs
import proofs.«100622_j16252156248489_1_alg».proof.Proof.Spec
import proofs.«100622_j16252156248489_1_alg».proof.Proof.KShared
import proofs.«100622_j16252156248489_1_alg».proof.Proof.RShared
import proofs.«100622_j16252156248489_1_alg».proof.Proof.KRun
import proofs.«100622_j16252156248489_1_alg».proof.Proof.KChain
import proofs.«100622_j16252156248489_1_alg».proof.Proof.RefValue
import Idealize.ShloMosaic.Adequacy
import Idealize.ShloMosaic.Init

noncomputable section

namespace Cert.Proof

open Idealize.ShloMosaic Idealize.ShloMosaic.TcCoe Idealize.SL.Sem

/-! ## The operations both programs share are the same functions in either program's words -/

theorem normOf_eq : Cert.ReferenceIdeal.Shared.normOf = Cert.KernelIdeal.Shared.normOf := rfl
theorem agg128_eq : Cert.ReferenceIdeal.Shared.agg128 = Cert.KernelIdeal.Shared.agg128 := rfl
theorem agg64_eq : Cert.ReferenceIdeal.Shared.agg64 = Cert.KernelIdeal.Shared.agg64 := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, the kernel program's result array and the reference's both end at the two
    layers of the arguments. -/
theorem algebraic : Cert.algebraic_KernelIdeal_ReferenceIdeal := by
  intro m ρ m' ρ' _ hagree
  refine ⟨fun c => Cert.KernelIdeal.Gen.W12 m ρ c (Proc.devRef .tc Cert.KernelIdeal.main_v43),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  have hk := Cert.KernelIdeal.Chain.result_eq m ρ c
  have hr := Cert.ReferenceIdeal.RefValue.result_eq m' c
  obtain ⟨h0, h1, h2, h3, h4, h5, h6⟩ := hagree c
  rw [h0, h1, h2, h3, h4, h5, h6, normOf_eq, agg128_eq, agg64_eq] at hr
  exact hr.trans hk.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
